-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x64 .f32) (main_arg3 : FVec F S64 .f32) (main_arg4 : FVec F S64x16 .f32) (main_arg5 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x64 .f32 := Host.absf main_arg2
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x256 : Shape := ⟨2, ![5000, 256]⟩
abbrev S5000x64 : Shape := ⟨2, ![5000, 64]⟩
abbrev S1700000x64 : Shape := ⟨2, ![1700000, 64]⟩
abbrev S1x64 : Shape := ⟨2, ![1, 64]⟩
abbrev S100000x16 : Shape := ⟨2, ![100000, 16]⟩
abbrev S5000x16 : Shape := ⟨2, ![5000, 16]⟩
abbrev S1700000x16 : Shape := ⟨2, ![1700000, 16]⟩
abbrev S1x16 : Shape := ⟨2, ![1, 16]⟩

abbrev nBuf : Space → Nat
  | .hbm => 129
  | .vmem => 10
  | .smem => 0
  | _ => 0

abbrev hbmTy0_0 (i : Nat) : BufTy := match i % 128 with
  | 0 => ⟨S100000x256, .f32⟩
  | 1 => ⟨S2x1600000, .i32⟩
  | 2 => ⟨S256x64, .f32⟩
  | 3 => ⟨S64, .f32⟩
  | 4 => ⟨S64x16, .f32⟩
  | 5 => ⟨S16, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S100000x64, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S1x1600000, .i32⟩
  | 70 => ⟨S1600000, .i32⟩
  | 71 => ⟨S1x1600000, .i32⟩
  | 72 => ⟨S1600000, .i32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S100000x16, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x16, .f32⟩
  | 119 => ⟨S1700000x1, .f32⟩
  | 120 => ⟨S1700000x16, .f32⟩
  | 121 => ⟨S1700000x16, .f32⟩
  | 122 => ⟨S_, .f32⟩
  | 123 => ⟨S100000x16, .f32⟩
  | 124 => ⟨S1700000x1, .i32⟩
  | 125 => ⟨S100000x16, .f32⟩
  | 126 => ⟨S1x16, .f32⟩
  | 127 => ⟨S100000x16, .f32⟩
  | _ => ⟨S100000x256, .f32⟩

abbrev hbmTy0_1 (i : Nat) : BufTy := match i % 128 with
  | 0 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x16, .f32⟩
  | .local _ .vmem, ⟨8, _⟩ => ⟨S5000x16, .f32⟩
  | .local _ .vmem, ⟨9, _⟩ => ⟨S5000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  dot_S5000x256_S256x64_S5000x64_1_0_0_1_n_n_wf : DotDims.WF S5000x256 S256x64 S5000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x16_S5000x16_1_0_0_1_n_n_wf : DotDims.WF S5000x64 S64x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .f32 = 32 ∨ (Rect.block (s := S64x16) S64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v63) S5000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x64 : Shape := ⟨2, ![256, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 129
  | .vmem => 0
  | .smem => 0
  | _ => 0

abbrev hbmTy0_0 (i : Nat) : BufTy := match i % 128 with
  | 0 => ⟨S100000x256, .f32⟩
  | 1 => ⟨S2x1600000, .i32⟩
  | 2 => ⟨S256x64, .f32⟩
  | 3 => ⟨S64, .f32⟩
  | 4 => ⟨S64x16, .f32⟩
  | 5 => ⟨S16, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S100000x64, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S1x1600000, .i32⟩
  | 70 => ⟨S1600000, .i32⟩
  | 71 => ⟨S1x1600000, .i32⟩
  | 72 => ⟨S1600000, .i32⟩
  | 73 => ⟨S100000, .i32⟩
  | 74 => ⟨S1700000, .i32⟩
  | 75 => ⟨S1700000, .i32⟩
  | 76 => ⟨S_, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S100000x16, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x16, .f32⟩
  | 119 => ⟨S1700000x1, .f32⟩
  | 120 => ⟨S1700000x16, .f32⟩
  | 121 => ⟨S1700000x16, .f32⟩
  | 122 => ⟨S_, .f32⟩
  | 123 => ⟨S100000x16, .f32⟩
  | 124 => ⟨S1700000x1, .i32⟩
  | 125 => ⟨S100000x16, .f32⟩
  | 126 => ⟨S1x16, .f32⟩
  | 127 => ⟨S100000x16, .f32⟩
  | _ => ⟨S100000x256, .f32⟩

abbrev hbmTy0_1 (i : Nat) : BufTy := match i % 128 with
  | 0 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  dot_S100000x256_S256x64_S100000x64_1_0_0_1_n_n_wf : DotDims.WF S100000x256 S256x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.LibRowOps.lean ====
/-
  Two-axis operations read at a row and a column.

  General facts about arrays with two axes, written over indices `ix2 r c` with literal-typed coordinates, at the
  extended reals where arithmetic is involved:
  * a plain matrix product `[M, K] × [K, N]` into a zero accumulator is, at `(r, c)`, the sum over `k` of the left
    operand at `(r, k)` times the right at `(k, c)`;
  * a sum over the second axis of an `[R, n]` array is, at `r`, the sum over `k` of the array at `(r, k)`;
  * a one-axis array `[a]` cast to a column `[a, 1]` reads its entry `r`; a column `[a, 1]` broadcast to `[a, b]`
    reads the column's entry in the same row;
  * two arrays joined along the second axis read the first where the column falls inside it and the second, the first's
    width less, elsewhere.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx
open scoped BigOperators

/-! ## A plain matrix product -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (M K N : ℕ) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (M K N : ℕ) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index of a plain product, re-indexed by the one contracted coordinate. -/
theorem plain_sum (M K N : ℕ) (a : (⟨2, ![M, K]⟩ : Shape).Idx → EReal) (b : (⟨2, ![K, N]⟩ : Shape).Idx → EReal)
    (r : Fin M) (c : Fin N) :
    ∑ k : (DotDims.plain M K N).contr.Idx,
        a ((DotDims.plain M K N).lhsIdx (ix2 r c) k) * b ((DotDims.plain M K N).rhsIdx (ix2 r c) k)
      = ∑ k : Fin K, a (ix2 r k) * b (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun ax => Fin.ext (by
      match ax with
      | ⟨0, _⟩ => exact plain_lhs0 M K N _ _
      | ⟨1, _⟩ => exact (plain_lhs1 M K N _ _).trans hk)
  have er : (DotDims.plain M K N).rhsIdx (ix2 r c) ((contrEquiv1 (DotDims.plain M K N) K rfl rfl).symm k) = ix2 k c :=
    funext fun ax => Fin.ext (by
      match ax with
      | ⟨0, _⟩ => exact (plain_rhs0 M K N _ _).trans hk
      | ⟨1, _⟩ => exact plain_rhs1 M K N _ _)
  rw [el, er]

/-- A matrix product with plain dimension numbers into the zero accumulator, at `(r, c)`: `Σₖ a (r, k) · b (k, c)`.
    The dimension record may be any whose data are the plain ones (`hD`, by `rfl` for a printed record). -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (r : Fin M) (c : Fin N) :
    matmul D prec a b (constant ⟨2, ![M, N]⟩ .f32 0x00000000#32) (ix2 r c) = ∑ k : Fin K, a (ix2 r k) * b (ix2 k c) := by
  subst hD
  exact (Ideal.matmul_constant_zero_apply (DotDims.plain M K N) prec a b (ix2 r c)).trans (plain_sum M K N a b r c)

/-! ## A sum along the second axis -/

/-- A float sum over axis 1 of an `[R, n]` array from the zero word, at `r`: `Σₖ x (r, k)`. -/
theorem multiReduction_add_rows {R n : ℕ} {φ : FTy} (x : FVec Ideal ⟨2, ![R, n]⟩ φ) (acc : BitVec φ.bits)
    (h : (⟨2, ![R, n]⟩ : Shape).Reduces [1] ⟨1, ![R]⟩) (hφ : FKind.Formats φ) (hacc : acc = FKind.add.neutral φ hφ) (r : Fin R) :
    multiReduction .add [1] ⟨1, ![R]⟩ x acc h hφ hacc (ix1 r) = ∑ k : Fin n, x (ix2 r k) := by
  refine (Ideal.multiReduction_add_single x acc h hφ hacc (ix1 r)).trans ?_
  refine Finset.sum_congr rfl fun k _ => congrArg x (funext fun ax => Fin.ext ?_)
  match ax with
  | ⟨0, _⟩ => rfl
  | ⟨1, _⟩ => rfl

/-! ## Columns -/

variable {α : Type}

/-- An `[a]` array cast to a column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry in row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## Two arrays side by side -/

/-- Two arrays `[R, a]` and `[R, b]` joined along axis 1 into `[R, c]`, at `(r, k)`: the first at `(r, k)` when `k < a`,
    else the second at `(r, k - a)`. -/
theorem concatenate_cols_apply {R a b c : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, c]⟩ 1) (hc : c = a + b) (r : Fin R) (k : Fin c) :
    concatenate ⟨2, ![R, c]⟩ 1 [⟨⟨2, ![R, a]⟩, x₁⟩, ⟨⟨2, ![R, b]⟩, x₂⟩] h (ix2 r k)
      = if hk : k.val < a then x₁ (ix2 r ⟨k.val, hk⟩) else x₂ (ix2 r ⟨k.val - a, by omega⟩) := by
  split
  · next hk =>
    refine concatenate_pair_apply_left 1 x₁ x₂ h (ix2 r k) rfl (ix2 r ⟨k.val, hk⟩) fun ax => ?_
    match ax with
    | ⟨0, _⟩ => rfl
    | ⟨1, _⟩ => rfl
  · next hk =>
    refine concatenate_pair_apply_right 1 x₁ x₂ h (ix2 r k) rfl rfl (ix2 r ⟨k.val - a, by omega⟩) (fun ax hne => ?_) ?_
    · match ax with
      | ⟨0, _⟩ => rfl
      | ⟨1, _⟩ => exact absurd rfl hne
    · show k.val - a + a = k.val
      omega

end Cert.RowOps

end
-- ==== Proof.LibDotPlain.lean ====
/-
  The host's plain matrix product read at a row and a column.

  A `dot_general` with the plain dimension numbers (`[M, K] × [K, N]`, the left operand's second axis contracted with
  the right's first, no batch axis) is, at the extended reals and at entry `(r, c)`, the sum over `k` of the left
  operand at `(r, k)` times the right at `(k, c)`: the same sum a kernel's matrix product into a zero accumulator
  gives there. Sums over the extended reals are sums in a commutative monoid, so no finiteness is asked.
-/
import proofs.«152059_j63625645523608_1_alg».proof.Proof.LibRowOps

noncomputable section

namespace Cert.DotPlain

open Idealize.ShloMosaic Idealize.ShloMosaic.ValueIdx
open scoped BigOperators

/-- The host's product with plain dimension numbers, at `(r, c)`: `Σₖ a (r, k) · b (k, c)`. The dimension record may
    be any whose data are the plain ones (`hD`). -/
theorem dotGeneral_plain_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (r : Fin M) (c : Fin N) :
    Host.dotGeneral D prec a b (ix2 r c) = ∑ k : Fin K, a (ix2 r k) * b (ix2 k c) := by
  subst hD
  exact (Ideal.dotGeneral_apply (DotDims.plain M K N) prec .single a b (ix2 r c)).trans (Cert.RowOps.plain_sum M K N a b r c)

/-- A kernel's product of a block of rows into the zero accumulator is the host's product of the whole arrays at the
    rows the block holds: if row `y` of the left block is row `R` of the whole left array (`hl`) and the right block is
    the whole right array (`hr`), the block's entry `(y, c)` is the whole product's entry `(R, c)`. -/
theorem matmul_block_eq_dotGeneral {Mb M K N : ℕ} {φ₁ φ₂ ψ₁ ψ₂ : FTy}
    (Db : DotDims ⟨2, ![Mb, K]⟩ ⟨2, ![K, N]⟩ ⟨2, ![Mb, N]⟩) (hDb : Db = DotDims.plain Mb K N)
    (D : DotDims ⟨2, ![M, K]⟩ ⟨2, ![K, N]⟩ ⟨2, ![M, N]⟩) (hD : D = DotDims.plain M K N)
    (precb prec : Option ContractPrecision)
    (xb : FVec Ideal ⟨2, ![Mb, K]⟩ φ₁) (wb : FVec Ideal ⟨2, ![K, N]⟩ φ₂)
    (X : FVec Ideal ⟨2, ![M, K]⟩ ψ₁) (W : FVec Ideal ⟨2, ![K, N]⟩ ψ₂)
    (y : Fin Mb) (R : Fin M) (c : Fin N)
    (hl : ∀ k : Fin K, xb (ix2 y k) = X (ix2 R k)) (hr : ∀ k : Fin K, wb (ix2 k c) = W (ix2 k c)) :
    matmul Db precb xb wb (constant ⟨2, ![Mb, N]⟩ .f32 0x00000000#32) (ix2 y c) = Host.dotGeneral D prec X W (ix2 R c) := by
  rw [Cert.RowOps.matmul_plain_apply Db hDb precb xb wb y c, dotGeneral_plain_apply D hD prec X W R c]
  exact Finset.sum_congr rfl fun k _ => by rw [hl k, hr k]

end Cert.DotPlain

end
-- ==== Proof.Layer1.lean ====
/-
  The first row-tiled product (`x @ W1`): what its output array holds when the region ends.

  The region walks the 100000 rows of `x` in 20 blocks of 5000. At block `t` the body reads rows
  `5000 t … 5000 t + 4999` of `x` and the whole of `W1`, narrows both to bf16 (the identity on the extended reals)
  and stores their product into a zero accumulator, so entry `(y, c)` of what it writes back is
  `Σₖ x (5000 t + y, k) · W1 (k, c)`: entry `(5000 t + y, c)` of the whole product. The 20 blocks tile the output
  (row `r` lies in block `r / 5000`), so the output array ends as the host's plain product of the two arrays the
  region found at its entry.
-/
import proofs.«152059_j63625645523608_1_alg».proof.Proof.Gen.KernelIdeal.Frame
import proofs.«152059_j63625645523608_1_alg».proof.Proof.LibDotPlain

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat)

/-- The whole product `[100000, 256] × [256, 64]` on the extended reals. -/
abbrev prod (X : FVec Ideal S100000x256 .f32) (W : FVec Ideal S256x64 .f32) : FVec Ideal S100000x64 .f32 :=
  Host.dotGeneral (DotDims.plain 100000 256 64) none X W

/-- One entry of the body's stored value: if row `j 0` of the left block is row `R` of `X` and the right block is
    `W`, the entry at `j` is the whole product's at `(R, j 1)`. -/
theorem payload_entry (x0 : Vec Ideal S5000x256 .f32) (x1 : Vec Ideal S256x64 .f32)
    (X : FVec Ideal S100000x256 .f32) (W : FVec Ideal S256x64 .f32) (R : Fin 100000) (j : S5000x64.Idx)
    (hl : ∀ k : Fin 256, x0 (ix2 (j 0) k) = X (ix2 R k)) (hr : ∀ k : Fin 256, x1 (ix2 k (j 1)) = W (ix2 k (j 1))) :
    k0_pay1 (F := Ideal) x0 x1 j = prod X W (ix2 R (j 1)) := by
  obtain ⟨y, q, rfl⟩ : ∃ (y : Fin 5000) (q : Fin 64), j = ix2 y q := ⟨j 0, j 1, eq_ix2 j⟩
  unfold k0_pay1
  exact Cert.DotPlain.matmul_block_eq_dotGeneral dot_S5000x256_S256x64_S5000x64_1_0_0_1_n_n rfl
    (DotDims.plain 100000 256 64) rfl none none _ _ X W y R q hl hr

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid: the left operand's and the output's blocks move down one block of rows per
    point and stay in column block 0; the right operand's block is always the first. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region found. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero zeros2]
  simp only [View.ld_unit_zero (S := S5000x256) zeros2, View.ld_unit_zero (S := S256x64) zeros2]
  obtain ⟨e00, e01, e10, e11, e20, e21⟩ := index_facts t
  have ht : t.val < 20 := t.isLt
  funext j
  have hj0 : (j 0).val < 5000 := (j 0).isLt
  have hj1 : (j 1).val < 64 := (j 1).isLt
  show k0_pay1 (iblk0 V c 0 t) (iblk0 V c 1 t) j = prod (V c main_arg0) (V c main_arg2) (((cfg0.win 2).blk t).view.emb j)
  have he : ((cfg0.win 2).blk t).view.emb j = ix2 (⟨t.val * 5000 + (j 0).val, by omega⟩ : Fin 100000) (j 1) := by
    funext a; apply Fin.ext
    match a with
    | ⟨0, _⟩ => show win0_2.index t (0 : Fin 2) * 5000 + 1 * (j 0).val = t.val * 5000 + (j 0).val; omega
    | ⟨1, _⟩ => show win0_2.index t (1 : Fin 2) * 64 + 1 * (j 1).val = (j 1).val; omega
  rw [he]
  refine payload_entry (iblk0 V c 0 t) (iblk0 V c 1 t) (V c main_arg0) (V c main_arg2) ⟨t.val * 5000 + (j 0).val, by omega⟩ j (fun k => ?_) (fun k => ?_)
  · show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = t.val * 5000 + (j 0).val; omega
    | ⟨1, _⟩ => show win0_0.index t (1 : Fin 2) * 256 + 1 * k.val = k.val; omega
  · show V c main_arg2 (((cfg0.win 1).blk t).view.emb (ix2 k (j 1))) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 64 + 1 * (j 1).val = (j 1).val; omega

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v15).slice (win0_2.rect t)).set ↔ _
  rw [View.set_slice_whole, Rect.mem_set_unit]
  exact Iff.rfl

/-- Every index of the output array is in some point's block: row `r` in block `r / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e00, e01, e10, e11, e20, e21⟩ := index_facts t
  have htv : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: the whole product of the two arrays the region found at its entry. -/
theorem final (c : Dev nD) : (dat0 V c).arrAt 2 cfg0.N = prod (V c main_arg0) (V c main_arg2) :=
  (dat0 V c).arrAt_eq_of_cover 2 (prod (V c main_arg0) (V c main_arg2)) (fun t _ => flushed_eq V c t) (cover)

end Cert.KernelIdeal.Layer1

end
-- ==== Proof.Layer2.lean ====
/-
  The second row-tiled product (`h @ W2`): what its output array holds when the region ends.

  The region walks the 100000 rows of the hidden layer `h` (the array the region finds in the buffer of the first layer's
  rectified output) in 20 blocks of 5000. At block `t` the body reads rows `5000 t … 5000 t + 4999` of `h` and the whole
  of `W2`, recasts the block to its own shape (the identity), narrows both to bf16 (the identity on the extended
  reals) and stores their product into a zero accumulator: entry `(y, c)` of what it writes back is
  `Σₖ h (5000 t + y, k) · W2 (k, c)`, entry `(5000 t + y, c)` of the whole product. The 20 blocks tile the output,
  so the output array ends as the host's plain product of the two arrays the region found at its entry.
-/
import proofs.«152059_j63625645523608_1_alg».proof.Proof.Gen.KernelIdeal.Frame
import proofs.«152059_j63625645523608_1_alg».proof.Proof.LibDotPlain

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat)

/-- The whole product `[100000, 64] × [64, 16]` on the extended reals. -/
abbrev prod (X : FVec Ideal S100000x64 .f32) (W : FVec Ideal S64x16 .f32) : FVec Ideal S100000x16 .f32 :=
  Host.dotGeneral (DotDims.plain 100000 64 16) none X W

/-- One entry of the body's stored value: if row `j 0` of the left block is row `R` of `X` and the right block is
    `W`, the entry at `j` is the whole product's at `(R, j 1)`. The block's recast to its own shape changes nothing. -/
theorem payload_entry (x0 : Vec Ideal S5000x64 .f32) (x1 : Vec Ideal S64x16 .f32)
    (X : FVec Ideal S100000x64 .f32) (W : FVec Ideal S64x16 .f32) (R : Fin 100000) (j : S5000x16.Idx)
    (hl : ∀ k : Fin 64, x0 (ix2 (j 0) k) = X (ix2 R k)) (hr : ∀ k : Fin 64, x1 (ix2 k (j 1)) = W (ix2 k (j 1))) :
    k1_pay1 (F := Ideal) x0 x1 j = prod X W (ix2 R (j 1)) := by
  obtain ⟨y, q, rfl⟩ : ∃ (y : Fin 5000) (q : Fin 16), j = ix2 y q := ⟨j 0, j 1, eq_ix2 j⟩
  unfold k1_pay1
  exact Cert.DotPlain.matmul_block_eq_dotGeneral dot_S5000x64_S64x16_S5000x16_1_0_0_1_n_n rfl
    (DotDims.plain 100000 64 16) rfl none none _ _ X W y R q
    (fun k => (congrFun (shapeCast_self x0 shapeCasts_S5000x64_S5000x64) (ix2 y k)).trans (hl k)) hr

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid: the left operand's and the output's blocks move down one block of rows per
    point and stay in column block 0; the right operand's block is always the first. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product of the arrays the region found. -/
theorem flushed_eq (c : Dev nD) (t : Fin cfg1.N) :
    (dat1 V c).flushed 2 t = ((cfg1.win 2).blk t).view.read (Elt Ideal) (prod (V c main_v47) (V c main_arg4)) := by
  show (cfg1.win 2).cut (grid1.coords t) ((dat1 V c).after 2 t) = _
  rw [after1_2]
  unfold out1_2
  rw [View.canon_unit_zero zeros2]
  simp only [View.ld_unit_zero (S := S5000x64) zeros2, View.ld_unit_zero (S := S64x16) zeros2]
  obtain ⟨e00, e01, e10, e11, e20, e21⟩ := index_facts t
  have ht : t.val < 20 := t.isLt
  funext j
  have hj0 : (j 0).val < 5000 := (j 0).isLt
  have hj1 : (j 1).val < 16 := (j 1).isLt
  show k1_pay1 (iblk1 V c 0 t) (iblk1 V c 1 t) j = prod (V c main_v47) (V c main_arg4) (((cfg1.win 2).blk t).view.emb j)
  have he : ((cfg1.win 2).blk t).view.emb j = ix2 (⟨t.val * 5000 + (j 0).val, by omega⟩ : Fin 100000) (j 1) := by
    funext a; apply Fin.ext
    match a with
    | ⟨0, _⟩ => show win1_2.index t (0 : Fin 2) * 5000 + 1 * (j 0).val = t.val * 5000 + (j 0).val; omega
    | ⟨1, _⟩ => show win1_2.index t (1 : Fin 2) * 16 + 1 * (j 1).val = (j 1).val; omega
  rw [he]
  refine payload_entry (iblk1 V c 0 t) (iblk1 V c 1 t) (V c main_v47) (V c main_arg4) ⟨t.val * 5000 + (j 0).val, by omega⟩ j (fun k => ?_) (fun k => ?_)
  · show V c main_v47 (((cfg1.win 0).blk t).view.emb (ix2 (j 0) k)) = _
    refine congrArg (V c main_v47) (funext fun a => Fin.ext ?_)
    match a with
    | ⟨0, _⟩ => show win1_0.index t (0 : Fin 2) * 5000 + 1 * (j 0).val = t.val * 5000 + (j 0).val; omega
    | ⟨1, _⟩ => show win1_0.index t (1 : Fin 2) * 64 + 1 * k.val = k.val; omega
  · show V c main_arg4 (((cfg1.win 1).blk t).view.emb (ix2 k (j 1))) = _
    refine congrArg (V c main_arg4) (funext fun a => Fin.ext ?_)
    match a with
    | ⟨0, _⟩ => show win1_1.index t (0 : Fin 2) * 64 + 1 * k.val = k.val; omega
    | ⟨1, _⟩ => show win1_1.index t (1 : Fin 2) * 16 + 1 * (j 1).val = (j 1).val; omega

/-- An index of the output array is in point `t`'s block iff each coordinate is in the block's range on its axis. -/
theorem mem_blk (t : Fin cfg1.N) (i : S100000x16.Idx) :
    i ∈ ((cfg1.win 2).blk t).view.set ↔ ∀ a : Fin 2, win1_2.index t a * S5000x16.size a ≤ (i a).val ∧ (i a).val < win1_2.index t a * S5000x16.size a + S5000x16.size a := by
  show i ∈ ((View.whole main_v63).slice (win1_2.rect t)).set ↔ _
  rw [View.set_slice_whole, Rect.mem_set_unit]
  exact Iff.rfl

/-- Every index of the output array is in some point's block: row `r` in block `r / 5000`. -/
theorem cover (i : S100000x16.Idx) : ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 20 := N_1
  let t : Fin cfg1.N := ⟨(i 0).val / 5000, by rw [hN]; omega⟩
  obtain ⟨e00, e01, e10, e11, e20, e21⟩ := index_facts t
  have htv : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 16 ≤ (i 1).val ∧ (i 1).val < win1_2.index t (1 : Fin 2) * 16 + 16; omega

/-- The output array after the region: the whole product of the two arrays the region found at its entry. -/
theorem final (c : Dev nD) : (dat1 V c).arrAt 2 cfg1.N = prod (V c main_v47) (V c main_arg4) :=
  (dat1 V c).arrAt_eq_of_cover 2 (prod (V c main_v47) (V c main_arg4)) (fun t _ => flushed_eq V c t) (cover)

end Cert.KernelIdeal.Layer2

end
-- ==== Proof.HostValue.lean ====
/-
  The kernel program's result as the reference's term.

  The two programs apply the same host operations (the edge lists with self loops, the degree and its inverse square
  root, each layer's gather, scale and scatter-add, the bias, the rectifier between the layers) and differ in two
  places only: where the reference multiplies on the host (`x @ W1`, then `h @ W2`), the kernel program enters a
  row-tiled region. So, given that each region leaves in its output array the host's product of the two arrays it found
  at its entry (`h1`, `h2`), the contents the last host stretch leaves in the result buffer are, operation for
  operation, the reference's composed term of the arguments. The buffer contents are followed backwards through
  @main: the last stretch over what the second region leaves, the middle stretches over what the first region leaves,
  the first stretches over the launch contents. No arithmetic is opened: every host operation stays a closed box, at
  any float family.
-/
import proofs.«152059_j63625645523608_1_alg».proof.Proof.Gen.KernelIdeal.Frame
import proofs.«152059_j63625645523608_1_alg».proof.Proof.RefRun

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- What is left of a fold inside a joined array's operand list, read one operation at a time: an operation's result
    at its own buffer is its function's value, at any other buffer what was there before. -/
local macro "peel_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

set_option maxHeartbeats 8000000 in
/-- The result buffer after the last host stretch is the reference's term of arguments that agree. -/
theorem result_eq (m' : (ℓ : Loc Cert.ReferenceIdeal.nD Cert.ReferenceIdeal.τ Cert.ReferenceIdeal.sig) → Buf (Elt F) ℓ) (c : Dev nD)
    (g0 : m' ((c.tc : Thread Cert.ReferenceIdeal.nD Cert.ReferenceIdeal.τ).loc Cert.ReferenceIdeal.main_arg0) = m ((c.tc : Thread nD τ).loc main_arg0))
    (g1 : m' ((c.tc : Thread Cert.ReferenceIdeal.nD Cert.ReferenceIdeal.τ).loc Cert.ReferenceIdeal.main_arg1) = m ((c.tc : Thread nD τ).loc main_arg1))
    (g2 : m' ((c.tc : Thread Cert.ReferenceIdeal.nD Cert.ReferenceIdeal.τ).loc Cert.ReferenceIdeal.main_arg2) = m ((c.tc : Thread nD τ).loc main_arg2))
    (g3 : m' ((c.tc : Thread Cert.ReferenceIdeal.nD Cert.ReferenceIdeal.τ).loc Cert.ReferenceIdeal.main_arg3) = m ((c.tc : Thread nD τ).loc main_arg3))
    (g4 : m' ((c.tc : Thread Cert.ReferenceIdeal.nD Cert.ReferenceIdeal.τ).loc Cert.ReferenceIdeal.main_arg4) = m ((c.tc : Thread nD τ).loc main_arg4))
    (g5 : m' ((c.tc : Thread Cert.ReferenceIdeal.nD Cert.ReferenceIdeal.τ).loc Cert.ReferenceIdeal.main_arg5) = m ((c.tc : Thread nD τ).loc main_arg5))
    (h1 : (dat0 (V2 m ρ) c).arrAt 2 cfg0.N
      = Host.dotGeneral Cert.ReferenceIdeal.dot_S100000x256_S256x64_S100000x64_1_0_0_1_n_n none (V2 m ρ c main_arg0) (V2 m ρ c main_arg2))
    (h2 : (dat1 (V7 m ρ) c).arrAt 2 cfg1.N
      = Host.dotGeneral Cert.ReferenceIdeal.dot_S100000x64_S64x16_S100000x16_1_0_0_1_n_n none (V7 m ρ c main_v47) (V7 m ρ c main_arg4)) :
    W9 m ρ c (Proc.devRef .tc main_v94) = Cert.ReferenceIdeal.ValueP.res_main_v94 m' c := by
  -- the last stretch, over what the second region leaves
  show StableHlo.after hostOps2 (W8 m ρ c) (Proc.devRef .tc main_v94) = _
  dsimp only [hostOps2]
  after_results_simp
  rw [show W8 m ρ c (Proc.devRef .tc main_v63) = _ from (W8_arr m ρ c 2).trans h2,
    W8_of_ne m ρ c main_v53 (by decide), W8_of_ne m ρ c main_v54 (by decide), W8_of_ne m ρ c main_v62 (by decide),
    W8_of_ne m ρ c main_arg5 (by decide)]
  -- the middle stretches, over what the first region leaves
  dsimp only [V7, W7, W6, W5, W4, hostOps1_3, hostOps1_2, hostOps1_1, hostOps1]
  after_results_simp
  peel_results
  rw [show W3 m ρ c (Proc.devRef .tc main_v15) = _ from (W3_arr m ρ c 2).trans h1,
    W3_of_ne m ρ c main_v5 (by decide), W3_of_ne m ρ c main_v6 (by decide), W3_of_ne m ρ c main_v14 (by decide),
    W3_of_ne m ρ c main_arg1 (by decide), W3_of_ne m ρ c main_arg3 (by decide), W3_of_ne m ρ c main_arg4 (by decide),
    W3_of_ne m ρ c main_arg5 (by decide)]
  -- the first stretches, over the launch contents
  dsimp only [V2, W2, W1, W0, hostOps0_1, hostOps0]
  after_results_simp
  peel_results
  -- the reference's term, at the same arguments
  unfold Cert.ReferenceIdeal.ValueP.res_main_v94
  rw [g0, g1, g2, g3, g4, g5]
  rfl

end Cert.KernelIdeal.HostValue

end
-- ==== Proof.lean ====
/-
  A two-layer graph convolution whose two dense products run as row-tiled kernels, against the same network with the
  products on the host: the certificate's five claims.

  Both programs compute, per layer, `out = scatter_add(dst, h[src] · (dinv[src] · dinv[dst])) + b` with `h = input @ W`,
  `dinv = where(deg > 0, rsqrt(deg), 0)` and `deg` the in-degree with self loops, a rectifier between the layers. The
  kernel program computes each `h` in a region of 20 blocks of 5000 rows: a block of rows times the whole weight
  matrix into a zero accumulator, after narrowing both to bf16. On the extended reals narrowing is the identity and the
  block product's entry `(y, c)` is `Σₖ x (5000 t + y, k) · W (k, c)`: the 20 blocks tile the whole product, entry for
  entry the host's `dot_general` (sums over the extended reals commute and associate, so no finiteness is used). Every
  other operation is the same host operation in both programs, so the results agree once the two products do.
  * the kernel programs' frames: the generated several-region frames;
  * the reference's frame and run: its host operations in order;
  * the kernel program's result: the final buffer contents read back through @main (`HostValue.result_eq`), the two
    regions' arrays by `Layer1.final` and `Layer2.final`.
-/
import proofs.«152059_j63625645523608_1_alg».proof.Defs
import proofs.«152059_j63625645523608_1_alg».proof.Proof.Gen.Kernel
import proofs.«152059_j63625645523608_1_alg».proof.Proof.Gen.Kernel.Skeleton
import proofs.«152059_j63625645523608_1_alg».proof.Proof.Gen.Kernel.Launch
import proofs.«152059_j63625645523608_1_alg».proof.Proof.Gen.Kernel.Points
import proofs.«152059_j63625645523608_1_alg».proof.Proof.Gen.Kernel.Frame
import proofs.«152059_j63625645523608_1_alg».proof.Proof.Gen.KernelIdeal
import proofs.«152059_j63625645523608_1_alg».proof.Proof.Gen.KernelIdeal.Skeleton
import proofs.«152059_j63625645523608_1_alg».proof.Proof.Gen.KernelIdeal.Launch
import proofs.«152059_j63625645523608_1_alg».proof.Proof.Gen.KernelIdeal.Points
import proofs.«152059_j63625645523608_1_alg».proof.Proof.Gen.KernelIdeal.Frame
import proofs.«152059_j63625645523608_1_alg».proof.Proof.Gen.ReferenceIdeal
import proofs.«152059_j63625645523608_1_alg».proof.Proof.Gen.Pre_finite_inputs
import proofs.«152059_j63625645523608_1_alg».proof.Proof.RefRun
import proofs.«152059_j63625645523608_1_alg».proof.Proof.KRun
import proofs.«152059_j63625645523608_1_alg».proof.Proof.Layer1
import proofs.«152059_j63625645523608_1_alg».proof.Proof.Layer2
import proofs.«152059_j63625645523608_1_alg».proof.Proof.HostValue
import Idealize.ShloMosaic.Adequacy
import Idealize.ShloMosaic.Init

noncomputable section

namespace Cert.Proof

open Idealize.ShloMosaic Idealize.ShloMosaic.TcCoe Idealize.SL.Sem

section Claims

variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference ends with its arguments unchanged: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the result array at the kernel program's final contents of the result buffer: the
    kernel program by its run, the reference because its composed term is those contents (`HostValue.result_eq`), each
    region's output array being the host's product of the arrays the region found (`Layer1.final`, `Layer2.final`). -/
theorem algebraic : Cert.algebraic_KernelIdeal_ReferenceIdeal := by
  intro m ρ m' ρ' _ hagree
  refine ⟨fun c => Cert.KernelIdeal.Gen.W9 m ρ c (Proc.devRef .tc Cert.KernelIdeal.main_v94),
    Cert.KernelIdeal.GenP.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨g0, g1, g2, g3, g4, g5⟩ := hagree c
  exact (Cert.KernelIdeal.HostValue.result_eq m ρ m' c g0 g1 g2 g3 g4 g5
    (Cert.KernelIdeal.Layer1.final (Cert.KernelIdeal.Gen.V2 m ρ) c)
    (Cert.KernelIdeal.Layer2.final (Cert.KernelIdeal.Gen.V7 m ρ) c)).symm

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
